-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x8x128 : Shape := ⟨3, ![65536, 8, 128]⟩
abbrev S128x128 : Shape := ⟨2, ![128, 128]⟩
abbrev S128 : Shape := ⟨1, ![128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x8x128 : S_.BroadcastsInDim S65536x8x128 (![] : Fin 0 → Fin S65536x8x128.rank)
  reducesTo_S65536x8x128_S_d0_1_2 : S65536x8x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  main_v73

def fn_part3 {F : FTy → Type} [FloatOps F] (main_arg11 : FVec F S128x128 .f32) (main_arg12 : FVec F S128x128 .f32) (main_arg13 : FVec F S128 .f32) (main_arg14 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x128 .f32) (main_arg1 : FVec F S65536x8x128 .f32) (main_arg2 : FVec F S65536x8x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x8x128 .f32 := Host.absf main_arg1
  let main_cst_0 : FVec F S_ .f32 := constant S_ .f32 0x7F800000#32
  let main_v5 : FVec F S65536x8x128 .f32 := broadcastInDim S65536x8x128 ![] bcast_S_S65536x8x128 main_cst_0
  let main_v6 : IVec S65536x8x128 1 := cmpf .olt main_v4 main_v5
  let main_c_1 : IVec S_ 1 := constantI S_ 1 1#1
  let main_v7 : IVec S_ 1 := (fun x v => Host.reduce IntOp.andi x v reducesTo_S65536x8x128_S_d0_1_2 h_S_) main_v6 main_c_1
  let main_v8 : IVec S_ 1 := andi main_v3 main_v7
  let main_v9 : FVec F S65536x8x128 .f32 := Host.absf main_arg2
  let main_cst_2 : FVec F S_ .f32 := constant S_ .f32 0x7F800000#32
  let main_v10 : FVec F S65536x8x128 .f32 := broadcastInDim S65536x8x128 ![] bcast_S_S65536x8x128 main_cst_2
  let main_v11 : IVec S65536x8x128 1 := cmpf .olt main_v9 main_v10
  let main_c_3 : IVec S_ 1 := constantI S_ 1 1#1
  let main_v12 : IVec S_ 1 := (fun x v => Host.reduce IntOp.andi x v reducesTo_S65536x8x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x128 : Shape := ⟨2, ![65536, 128]⟩
abbrev S65536x8x128 : Shape := ⟨3, ![65536, 8, 128]⟩
abbrev S128x128 : Shape := ⟨2, ![128, 128]⟩
abbrev S128 : Shape := ⟨1, ![128]⟩
abbrev S1x128 : Shape := ⟨2, ![1, 128]⟩
abbrev S1024x128 : Shape := ⟨2, ![1024, 128]⟩
abbrev S1024x8x128 : Shape := ⟨3, ![1024, 8, 128]⟩
abbrev S1024x1x128 : Shape := ⟨3, ![1024, 1, 128]⟩

abbrev nBuf : Space → Nat
  | .hbm => 21
  | .vmem => 22
  | .smem => 0
  | _ => 0

abbrev bufTy : (tb : Table) → Fin (tcTables nBuf tb) → BufTy
  | .hbm, ⟨0, _⟩ => ⟨S65536x128, .f32⟩
  | .hbm, ⟨1, _⟩ => ⟨S65536x8x128, .f32⟩
  | .hbm, ⟨2, _⟩ => ⟨S65536x8x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S65536x128, .f32⟩
  | .hbm, ⟨20, _⟩ => ⟨S65536x128, .f32⟩
  | .local _ .vmem, ⟨0, _⟩ => ⟨S1024x128, .f32⟩
  | .local _ .vmem, ⟨1, _⟩ => ⟨S1024x128, .f32⟩
  | .local _ .vmem, ⟨2, _⟩ => ⟨S1024x8x128, .f32⟩
  | .local _ .vmem, ⟨3, _⟩ => ⟨S1024x8x128, .f32⟩
  | .local _ .vmem, ⟨4, _⟩ => ⟨S1024x8x128, .f32⟩
  | .local _ .vmem, ⟨5, _⟩ => ⟨S1024x8x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S1024x8x128_S1024x8x128_0_0_0 : ∀ a, (![0, 0, 0] : Fin 3 → Nat) a + S1024x8x128.size a ≤ S1024x8x128.size a
  h_S1024x8x128 : 0 < S1024x8x128.numel
  reduces_S1024x8x128_S1024x128 : S1024x8x128.Reduces [1] S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x8x128_o0_0_0_S1024x1x128 : S1024x8x128.Slices ![0, 0, 0] S1024x1x128
  shapeCasts_S1024x1x128_S1024x128 : S1024x1x128.ShapeCasts S1024x128
  slices_S1024x8x128_o0_1_0_S1024x1x128 : S1024x8x128.Slices ![0, 1, 0] S1024x1x128
  slices_S1024x8x128_o0_2_0_S1024x1x128 : S1024x8x128.Slices ![0, 2, 0] S1024x1x128
  slices_S1024x8x128_o0_3_0_S1024x1x128 : S1024x8x128.Slices ![0, 3, 0] S1024x1x128
  slices_S1024x8x128_o0_4_0_S1024x1x128 : S1024x8x128.Slices ![0, 4, 0] S1024x1x128
  slices_S1024x8x128_o0_5_0_S1024x1x128 : S1024x8x128.Slices ![0, 5, 0] S1024x1x128
  slices_S1024x8x128_o0_6_0_S1024x1x128 : S1024x8x128.Slices ![0, 6, 0] S1024x1x128
  slices_S1024x8x128_o0_7_0_S1024x1x128 : S1024x8x128.Slices ![0, 7, 0] S1024x1x128
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x128.size a ≤ S65536x8x128.size a
  hwx0_1 : ∀ i : grid0.Coords, EltTy.bits .f32 = 32 ∨ (Rect.block (s := S65536x8x128) S1024x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8x128.size a ≤ S65536x8x128.size a
  hwx0_2 : ∀ i : grid0.Coords, EltTy.bits .f32 = 32 ∨ (Rect.block (s := S65536x8x128) S1024x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x128.size a ≤ S65536x128.size a
  hwx0_15 : ∀ i : grid0.Coords, EltTy.bits .f32 = 32 ∨ (Rect.block (s := S65536x128) S1024x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S65536x128.size a
  hwx0_16 : ∀ i : grid0.Coords, EltTy.bits .f32 = 32 ∨ (Rect.block (s := S65536x128) S1024x128.size (cc0_transform_16 i) (hinb0_16 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4_0) S1024x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_1) S1024x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x8x128 : Shape := ⟨3, ![65536, 8, 128]⟩
abbrev S128x128 : Shape := ⟨2, ![128, 128]⟩
abbrev S128 : Shape := ⟨1, ![128]⟩
abbrev S_ : Shape := ⟨0, ![]⟩
abbrev S1x128 : Shape := ⟨2, ![1, 128]⟩
abbrev S65536x1x128 : Shape := ⟨3, ![65536, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x8x128, .f32⟩
  | .hbm, ⟨2, _⟩ => ⟨S65536x8x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S_, .f32⟩
  | .hbm, ⟨16, _⟩ => ⟨S65536x128, .f32⟩
  | .hbm, ⟨17, _⟩ => ⟨S65536x128, .f32⟩
  | .hbm, ⟨18, _⟩ => ⟨S1x128, .f32⟩
  | .hbm, ⟨19, _⟩ => ⟨S65536x128, .f32⟩
  | .hbm, ⟨20, _⟩ => ⟨S65536x128, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S65536x128, .f32⟩
  | .hbm, ⟨25, _⟩ => ⟨S_, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S1x128, .f32⟩
  | .hbm, ⟨33, _⟩ => ⟨S65536x128, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S65536x128, .f32⟩
  | .hbm, ⟨39, _⟩ => ⟨S_, .f32⟩
  | .hbm, ⟨40, _⟩ => ⟨S65536x128, .f32⟩
  | .hbm, ⟨41, _⟩ => ⟨S65536x128, .f32⟩
  | .hbm, ⟨42, _⟩ => ⟨S_, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S1x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S65536x128, .f32⟩
  | .hbm, ⟨51, _⟩ => ⟨S65536x128, .f32⟩
  | .hbm, ⟨52, _⟩ => ⟨S65536x128, .f32⟩
  | .hbm, ⟨53, _⟩ => ⟨S1x128, .f32⟩
  | .hbm, ⟨54, _⟩ => ⟨S65536x128, .f32⟩
  | .hbm, ⟨55, _⟩ => ⟨S65536x128, .f32⟩
  | .hbm, ⟨56, _⟩ => ⟨S65536x1x128, .f32⟩
  | .hbm, ⟨57, _⟩ => ⟨S65536x8x128, .f32⟩
  | .hbm, ⟨58, _⟩ => ⟨S65536x8x128, .f32⟩
  | .hbm, ⟨59, _⟩ => ⟨S65536x8x128, .f32⟩
  | .hbm, ⟨60, _⟩ => ⟨S65536x8x128, .f32⟩
  | .hbm, ⟨61, _⟩ => ⟨S65536x8x128, .f32⟩
  | .hbm, ⟨62, _⟩ => ⟨S_, .f32⟩
  | .hbm, ⟨63, _⟩ => ⟨S65536x8x128, .f32⟩
  | .hbm, ⟨64, _⟩ => ⟨S65536x8x128, .f32⟩
  | .hbm, ⟨65, _⟩ => ⟨S_, .f32⟩
  | .hbm, ⟨66, _⟩ => ⟨S65536x8x128, .f32⟩
  | .hbm, ⟨67, _⟩ => ⟨S65536x8x128, .f32⟩
  | .hbm, ⟨68, _⟩ => ⟨S65536x128, .f32⟩
  | .hbm, ⟨69, _⟩ => ⟨S65536x8x128, .f32⟩
  | .hbm, ⟨70, _⟩ => ⟨S_, .f32⟩
  | .hbm, ⟨71, _⟩ => ⟨S65536x128, .f32⟩
  | .hbm, ⟨72, _⟩ => ⟨S65536x128, .f32⟩
  | .hbm, ⟨73, _⟩ => ⟨S65536x128, .f32⟩
  | .hbm, ⟨74, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  reducesTo_S65536x8x128_S65536x128_d1 : S65536x8x128.ReducesTo [1] S65536x128
  h_S_ : 0 < S_.numel
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S65536x128_S65536x1x128_0_2 : S65536x128.BroadcastsInDim S65536x1x128 (![0, 2] : Fin 2 → Fin S65536x1x128.rank)
  bcast_S65536x1x128_S65536x8x128_0_1_2 : S65536x1x128.BroadcastsInDim S65536x8x128 (![0, 1, 2] : Fin 3 → Fin S65536x8x128.rank)
  bcast_S_S65536x8x128 : S_.BroadcastsInDim S65536x8x128 (![] : Fin 0 → Fin S65536x8x128.rank)
  dot_S65536x128_S128x128_S65536x128_1_0_0_1_n_n_wf : DotDims.WF S65536x128 S128x128 S65536x128 [1] [0] [0] [1] [] []
  dot_S65536x8x128_S128x128_S65536x8x128_2_0_01_1_n_n_wf : DotDims.WF S65536x8x128 S128x128 S65536x8x128 [2] [0] [0, 1] [1] [] []

variable [Facts₀]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x8x128_S128x128_S65536x8x128_2_0_01_1_n_n : DotDims S65536x8x128 S128x128 S65536x8x128 where
  lhsContracting := [2]
  rhsContracting := [0]
  lhsNonContracting := [0, 1]
  rhsNonContracting := [1]
  lhsBatch := []
  rhsBatch := []
  wf := dot_S65536x8x128_S128x128_S65536x8x128_2_0_01_1_n_n_wf

class Facts : Prop extends Facts₀ where

variable [Facts]
-- ==== Proof.TreeLstmSpec.lean ====
/-
  The child-sum Tree-LSTM cell, node by node, over the extended reals.

  A node has an input row `x` (128 features), eight children with hidden rows `ch k` and cell rows `cc k`, and
  the layer has four gates, each with an input matrix `W`, a bias `b` and a recurrent matrix `U`:

    h̃      = ∑ₖ ch k                                   (the children's hidden rows, summed)
    i, o   = σ ((x·W + b) + h̃·U)                       (input and output gates)
    u      = tanh ((x·W + b) + h̃·U)                    (the candidate)
    fₖ     = σ ((x·Wf + bf) + (ch k)·Uf)               (one forget gate per child)
    c      = i · u + ∑ₖ fₖ · cc k
    h      = o · tanh c

  with `σ y = 1 / (1 + e^(-y))`. Everything is stated at one output feature `d`; a product `a·W` at `d` is
  the sum over the 128 input features `j` of `a j * W (j, d)`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.TreeLstm

/-- A 128 × 128 weight matrix: entry `(j, d)` takes input feature `j` to output feature `d`. -/
abbrev Mat := (⟨2, ![128, 128]⟩ : Shape).Idx → EReal

/-- A row of 128 features. -/
abbrev Row := Fin 128 → EReal

/-- The row `a` times the matrix `W`, at output feature `d`. -/
def dotCol (a : Row) (W : Mat) (d : Fin 128) : EReal := ∑ j : Fin 128, a j * W (ix2 j d)

/-- The eight children's rows summed, feature by feature. -/
def childSum (ch : Fin 8 → Row) : Row := fun j => ∑ k : Fin 8, ch k j

/-- A gate's argument: `(x·W + b) + h̃·U` at output feature `d`, for a recurrent row `r`. -/
def affine (x r : Row) (W : Mat) (b : Row) (U : Mat) (d : Fin 128) : EReal :=
  (dotCol x W d + b d) + dotCol r U d

/-- The layer's twelve parameters. -/
structure Params where
  Wi : Mat
  bi : Row
  Ui : Mat
  Wo : Mat
  bo : Row
  Uo : Mat
  Wu : Mat
  bu : Row
  Uu : Mat
  Wf : Mat
  bf : Row
  Uf : Mat

/-- Child `k`'s forget gate times its cell row, at feature `d`. -/
def forgetTerm (w : Params) (x : Row) (ch cc : Fin 8 → Row) (d : Fin 128) (k : Fin 8) : EReal :=
  Ideal.logistic (affine x (ch k) w.Wf w.bf w.Uf d) * cc k d

/-- The input gate times the candidate, at feature `d`. -/
def inputTerm (w : Params) (x : Row) (ch : Fin 8 → Row) (d : Fin 128) : EReal :=
  Ideal.logistic (affine x (childSum ch) w.Wi w.bi w.Ui d) * Ideal.tanh (affine x (childSum ch) w.Wu w.bu w.Uu d)

/-- The node's new cell state at feature `d`. -/
def cell (w : Params) (x : Row) (ch cc : Fin 8 → Row) (d : Fin 128) : EReal :=
  inputTerm w x ch d + ∑ k : Fin 8, forgetTerm w x ch cc d k

/-- The node's new hidden state at feature `d`. -/
def hidden (w : Params) (x : Row) (ch cc : Fin 8 → Row) (d : Fin 128) : EReal :=
  Ideal.logistic (affine x (childSum ch) w.Wo w.bo w.Uo d) * Ideal.tanh (cell w x ch cc d)

/-- Adding eight terms to `a` one after the other is adding their sum: addition of extended reals is associative. -/
theorem add_eight (a : EReal) (t : Fin 8 → EReal) :
    a + t 0 + t 1 + t 2 + t 3 + t 4 + t 5 + t 6 + t 7 = a + ∑ k : Fin 8, t k := by
  rw [Fin.sum_univ_eight]
  simp only [add_assoc]

/-! ## The layer over all nodes -/

/-- The 65536 nodes' input rows. -/
abbrev Nodes := (⟨2, ![65536, 128]⟩ : Shape).Idx → EReal
/-- The 65536 nodes' eight children's rows. -/
abbrev Children := (⟨3, ![65536, 8, 128]⟩ : Shape).Idx → EReal
/-- A bias as the layer is given it. -/
abbrev Bias := (⟨1, ![128]⟩ : Shape).Idx → EReal

/-- The parameters from the arrays the layer is given. -/
def paramsOf (Wi : Mat) (bi : Bias) (Ui : Mat) (Wo : Mat) (bo : Bias) (Uo : Mat) (Wu : Mat) (bu : Bias) (Uu : Mat)
    (Wf : Mat) (bf : Bias) (Uf : Mat) : Params :=
  ⟨Wi, fun d => bi (ix1 d), Ui, Wo, fun d => bo (ix1 d), Uo, Wu, fun d => bu (ix1 d), Uu, Wf, fun d => bf (ix1 d), Uf⟩

/-- Every node's new cell state. -/
def cellAll (w : Params) (X : Nodes) (CH CC : Children) : Nodes := fun i =>
  cell w (fun j => X (ix2 (i 0) j)) (fun k j => CH (ix3 (i 0) k j)) (fun k j => CC (ix3 (i 0) k j)) (i 1)

/-- Every node's new hidden state. -/
def hiddenAll (w : Params) (X : Nodes) (CH CC : Children) : Nodes := fun i =>
  hidden w (fun j => X (ix2 (i 0) j)) (fun k j => CH (ix3 (i 0) k j)) (fun k j => CC (ix3 (i 0) k j)) (i 1)

end Cert.TreeLstm

end
-- ==== Proof.KernelBlock.lean ====
/-
  One block of 1024 nodes: what the kernel body computes from the block's rows, read entry by entry.

  The body works on whole blocks: the nodes' input rows `X` [1024, 128], their children's hidden and cell rows
  `CH`, `CC` [1024, 8, 128], eight weight matrices [128, 128] and four bias rows [1, 128]. Its operations are
  pointwise except four kinds, read here at entry `(p, q)` (node `p` of the block, feature `q`):
    * a matrix product into a zero accumulator is the sum over the 128 input features of the products;
    * the sum of a [1024, 8, 128] block over its middle axis is the sum over the eight children;
    * a bias row [1, 128] broadcast down the 1024 nodes is the row's entry `q`;
    * child `k`'s slice [1024, 1, 128] recast to [1024, 128] is the block's entry `(p, k, q)`.
  A change of float format is the identity on the extended reals. With these the body's two stored values are
  the specification's `cell` and `hidden` of node `p`'s rows (Proof/TreeLstmSpec.lean): the body adds the eight
  children's forget terms to `i · u` one after the other, the specification adds their sum, and addition of
  extended reals is associative (`add_eight`).
-/
import proofs.«117306_j15710990369454_1_alg».proof.Proof.Gen.KernelIdeal.Skeleton
import proofs.«117306_j15710990369454_1_alg».proof.Proof.TreeLstmSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.TreeLstm

/-! ## A block's rows -/

/-- Node `p`'s row of a [1024, 128] block. -/
abbrev rowOf (X : Vec Ideal S1024x128 .f32) (p : Fin 1024) : Row := fun j => X (ix2 p j)
/-- Node `p`'s eight children's rows of a [1024, 8, 128] block. -/
abbrev kidsOf (C : Vec Ideal S1024x8x128 .f32) (p : Fin 1024) : Fin 8 → Row := fun k j => C (ix3 p k j)
/-- A [1, 128] bias block as a row. -/
abbrev biasOf (b : Vec Ideal S1x128 .f32) : Row := fun d => b (ix2 (0 : Fin 1) d)

/-- The layer's parameters from the blocks the body loads. -/
def blockParams (Wi : Vec Ideal S128x128 .f32) (bi : Vec Ideal S1x128 .f32) (Ui Wo : Vec Ideal S128x128 .f32) (bo : Vec Ideal S1x128 .f32)
    (Uo Wu : Vec Ideal S128x128 .f32) (bu : Vec Ideal S1x128 .f32) (Uu Wf : Vec Ideal S128x128 .f32) (bf : Vec Ideal S1x128 .f32)
    (Uf : Vec Ideal S128x128 .f32) : Params :=
  ⟨Wi, biasOf bi, Ui, Wo, biasOf bo, Uo, Wu, biasOf bu, Uu, Wf, biasOf bf, Uf⟩

/-! ## The four operations that are not pointwise, at an entry -/

theorem lhs_axis0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_axis1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_axis0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_axis1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A block times a weight matrix, into the zero accumulator: entry `(p, q)` is the sum over the input features. -/
theorem mm_apply {φ₁ φ₂ : FTy} (a : FVec Ideal S1024x128 φ₁) (W : FVec Ideal S128x128 φ₂) (p : Fin 1024) (q : Fin 128) :
    matmul dot_S1024x128_S128x128_S1024x128_1_0_0_1_n_n none a W (constant S1024x128 .f32 0x00000000#32) (ix2 p q)
      = ∑ j : Fin 128, a (ix2 p j) * W (ix2 j q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The sum of a [1024, 8, 128] block over its middle axis: entry `(p, q)` is the sum over the eight children. -/
theorem laneSum_apply (v : FVec Ideal S1024x8x128 .f32) (h : S1024x8x128.Reduces [1] S1024x128) (hφ : FKind.Formats .f32)
    (hacc : (0x00000000#32 : BitVec 32) = FKind.add.neutral .f32 hφ) (p : Fin 1024) (q : Fin 128) :
    multiReduction .add [1] S1024x128 v 0x00000000#32 h hφ hacc (ix2 p q) = ∑ k : Fin 8, v (ix3 p k q) := by
  refine (Ideal.multiReduction_add_single v 0x00000000#32 h hφ hacc (ix2 p q)).trans ?_
  refine Finset.sum_congr rfl fun k _ => congrArg v (funext fun a => Fin.ext ?_)
  match a with
  | ⟨0, _⟩ => rfl
  | ⟨1, _⟩ => rfl
  | ⟨2, _⟩ => rfl

/-- A bias row recast to itself and broadcast down the nodes: entry `(p, q)` is the row's entry `q`. -/
theorem bias_apply (b : Vec Ideal S1x128 .f32) (hs : S1x128.ShapeCasts S1x128) (hb : S1x128.Broadcasts S1024x128) (p : Fin 1024) (q : Fin 128) :
    broadcastTo S1024x128 (shapeCast S1x128 b hs) hb (ix2 p q) = b (ix2 (0 : Fin 1) q) := by
  rw [shapeCast_self]
  exact broadcastTo_1b_ab_apply b hb p q

/-- Child `k`'s slice of a [1024, 8, 128] block, recast to [1024, 128]: entry `(p, q)` is the block's `(p, k, q)`. -/
theorem child_apply (v : Vec Ideal S1024x8x128 .f32) (k : Fin 8) (off : Fin 3 → ℕ) (hoff : off = ![0, k.val, 0])
    (h : S1024x8x128.Slices off S1024x1x128) (hs : S1024x1x128.ShapeCasts S1024x128) (p : Fin 1024) (q : Fin 128) :
    shapeCast S1024x128 (extractStridedSlice S1024x1x128 off v h) hs (ix2 p q) = v (ix3 p k q) := by
  subst hoff
  refine (shapeCast_apply _ hs (ix2 p q) (ix3 p (0 : Fin 1) q) ?_).trans ?_
  · rw [Shape.rowMajor_val_two, Shape.rowMajor_val_three]
    show (p.val * 1 + 0) * 128 + q.val = p.val * 128 + q.val
    omega
  · exact slice3_axis1_apply k.val v h p (0 : Fin 1) q k (by simp)

/-! ## The body's values at an entry -/

variable (X : Vec Ideal S1024x128 .f32) (CH CC : Vec Ideal S1024x8x128 .f32)

/-- A gate's argument `(X·W + b) + (∑ₖ CHₖ)·U` as the body spells it, at entry `(p, q)`. -/
theorem affine_apply (W U : Vec Ideal S128x128 .f32) (b : Vec Ideal S1x128 .f32) (hs : S1x128.ShapeCasts S1x128)
    (hb : S1x128.Broadcasts S1024x128) (p : Fin 1024) (q : Fin 128) :
    addf (addf (matmul dot_S1024x128_S128x128_S1024x128_1_0_0_1_n_n none (k0_pay3 X) (truncf .bf16 W bitsLt_bf16_f32) (constant S1024x128 .f32 0x00000000#32))
        (broadcastTo S1024x128 (shapeCast S1x128 b hs) hb))
      (matmul dot_S1024x128_S128x128_S1024x128_1_0_0_1_n_n none (k0_pay4 CH) (truncf .bf16 U bitsLt_bf16_f32) (constant S1024x128 .f32 0x00000000#32)) (ix2 p q)
      = affine (rowOf X p) (childSum (kidsOf CH p)) W (biasOf b) U q := by
  refine congrArg₂ (· + ·) (congrArg₂ (· + ·) (mm_apply _ _ p q) (bias_apply b hs hb p q)) ((mm_apply _ _ p q).trans ?_)
  exact Finset.sum_congr rfl fun j _ => congrArg (· * U (ix2 j q)) (laneSum_apply CH reduces_S1024x8x128_S1024x128 (.inl rfl) rfl p j)

/-- The forget branch's shared part `X·Wf + bf` at entry `(p, q)`. -/
theorem xfb_apply (Wf : Vec Ideal S128x128 .f32) (bf : Vec Ideal S1x128 .f32) (p : Fin 1024) (q : Fin 128) :
    k0_pay17 (k0_pay3 X) (k0_pay11 Wf) bf (ix2 p q) = dotCol (rowOf X p) Wf q + biasOf bf q :=
  congrArg₂ (· + ·) (mm_apply _ _ p q) (bias_apply bf _ _ p q)

/-- Child `k`'s forget gate times its cell row, as the body spells it over the child's slices, at entry `(p, q)`. -/
theorem forget_apply (w : Params) (Wf : Vec Ideal S128x128 .f32) (bf : Vec Ideal S1x128 .f32) (Uf : Vec Ideal S128x128 .f32)
    (hWf : w.Wf = Wf) (hbf : w.bf = biasOf bf) (hUf : w.Uf = Uf)
    (k : Fin 8) (off : Fin 3 → ℕ) (hoff : off = ![0, k.val, 0]) (h : S1024x8x128.Slices off S1024x1x128)
    (hs : S1024x1x128.ShapeCasts S1024x128) (p : Fin 1024) (q : Fin 128) :
    mulf (logistic (addf (k0_pay17 (k0_pay3 X) (k0_pay11 Wf) bf)
        (matmul dot_S1024x128_S128x128_S1024x128_1_0_0_1_n_n none (truncf .bf16 (shapeCast S1024x128 (extractStridedSlice S1024x1x128 off CH h) hs) bitsLt_bf16_f32)
          (k0_pay12 Uf) (constant S1024x128 .f32 0x00000000#32))))
      (shapeCast S1024x128 (extractStridedSlice S1024x1x128 off CC h) hs) (ix2 p q)
      = forgetTerm w (rowOf X p) (kidsOf CH p) (kidsOf CC p) q k := by
  unfold forgetTerm affine
  rw [hWf, hbf, hUf]
  refine congrArg₂ (· * ·) (congrArg Ideal.logistic (congrArg₂ (· + ·) (xfb_apply X Wf bf p q) ((mm_apply _ _ p q).trans ?_))) (child_apply CC k off hoff h hs p q)
  exact Finset.sum_congr rfl fun j _ => congrArg (· * Uf (ix2 j q)) (child_apply CH k off hoff h hs p j)

/-! ## The two stored values -/

variable (Wi : Vec Ideal S128x128 .f32) (bi : Vec Ideal S1x128 .f32) (Ui Wo : Vec Ideal S128x128 .f32) (bo : Vec Ideal S1x128 .f32)
  (Uo Wu : Vec Ideal S128x128 .f32) (bu : Vec Ideal S1x128 .f32) (Uu Wf : Vec Ideal S128x128 .f32) (bf : Vec Ideal S1x128 .f32)
  (Uf : Vec Ideal S128x128 .f32)

/-- The sum the body has after children 0 … 6: `i · u` and seven forget terms, added one after the other. -/
abbrev cellPay7 : FVec Ideal S1024x128 .f32 :=
  k0_pay20 (F := Ideal) CH CC (k0_pay12 Uf) (k0_pay17 (k0_pay3 X) (k0_pay11 Wf) bf)
    (k0_pay18 CH CC (k0_pay3 X) (k0_pay4 CH) (k0_pay5 Wi) (k0_pay6 Ui) (k0_pay9 Wu) (k0_pay10 Uu) (k0_pay11 Wf) (k0_pay12 Uf) (k0_pay13 bi) (k0_pay15 bu) bf)
    (k0_pay19 CH (k0_pay12 Uf))

/-- Child 7's forget term. -/
abbrev lastPay : FVec Ideal S1024x128 .f32 :=
  k0_pay21 (F := Ideal) CH CC (k0_pay12 Uf) (k0_pay17 (k0_pay3 X) (k0_pay11 Wf) bf)

/-- The cell block the body stores. -/
abbrev cellPay : FVec Ideal S1024x128 .f32 :=
  k0_pay1 (F := Ideal) (cellPay7 X CH CC Wi bi Ui Wu bu Uu Wf bf Uf) (lastPay X CH CC Wf bf Uf)

/-- The hidden block the body stores. -/
abbrev hiddenPay : FVec Ideal S1024x128 .f32 :=
  k0_pay2 (F := Ideal) (k0_pay16 (k0_pay3 X) (k0_pay4 CH) (k0_pay7 Wo) (k0_pay8 Uo) (k0_pay14 bo))
    (cellPay7 X CH CC Wi bi Ui Wu bu Uu Wf bf Uf) (lastPay X CH CC Wf bf Uf)

/-- The input gate times the candidate at entry `(p, q)`. -/
theorem input_apply (p : Fin 1024) (q : Fin 128) :
    mulf (logistic (addf (addf (matmul dot_S1024x128_S128x128_S1024x128_1_0_0_1_n_n none (k0_pay3 X) (k0_pay5 Wi) (constant S1024x128 .f32 0x00000000#32))
          (broadcastTo S1024x128 (k0_pay13 bi) broadcasts_S1x128_S1024x128))
        (matmul dot_S1024x128_S128x128_S1024x128_1_0_0_1_n_n none (k0_pay4 CH) (k0_pay6 Ui) (constant S1024x128 .f32 0x00000000#32))))
      (tanh (addf (addf (matmul dot_S1024x128_S128x128_S1024x128_1_0_0_1_n_n none (k0_pay3 X) (k0_pay9 Wu) (constant S1024x128 .f32 0x00000000#32))
          (broadcastTo S1024x128 (k0_pay15 bu) broadcasts_S1x128_S1024x128))
        (matmul dot_S1024x128_S128x128_S1024x128_1_0_0_1_n_n none (k0_pay4 CH) (k0_pay10 Uu) (constant S1024x128 .f32 0x00000000#32)))) (ix2 p q)
      = inputTerm (blockParams Wi bi Ui Wo bo Uo Wu bu Uu Wf bf Uf) (rowOf X p) (kidsOf CH p) q :=
  congrArg₂ (· * ·) (congrArg Ideal.logistic (affine_apply X CH Wi Ui bi shapeCasts_S1x128_S1x128 broadcasts_S1x128_S1024x128 p q))
    (congrArg Ideal.tanh (affine_apply X CH Wu Uu bu shapeCasts_S1x128_S1x128 broadcasts_S1x128_S1024x128 p q))

/-- THE CELL BLOCK at entry `(p, q)` is the specification's cell state of node `p`'s rows at feature `q`: the eight forget
    terms added one after the other are their sum added once. -/
theorem cellPay_apply (p : Fin 1024) (q : Fin 128) :
    cellPay X CH CC Wi bi Ui Wu bu Uu Wf bf Uf (ix2 p q)
      = cell (blockParams Wi bi Ui Wo bo Uo Wu bu Uu Wf bf Uf) (rowOf X p) (kidsOf CH p) (kidsOf CC p) q := by
  have fk : ∀ (k : Fin 8) (off : Fin 3 → ℕ) (hoff : off = ![0, k.val, 0]) (h : S1024x8x128.Slices off S1024x1x128), _ :=
    fun k off hoff h => forget_apply X CH CC (blockParams Wi bi Ui Wo bo Uo Wu bu Uu Wf bf Uf) Wf bf Uf rfl rfl rfl k off hoff h
      shapeCasts_S1024x1x128_S1024x128 p q
  refine Eq.trans ?_ (add_eight (inputTerm (blockParams Wi bi Ui Wo bo Uo Wu bu Uu Wf bf Uf) (rowOf X p) (kidsOf CH p) q)
    (forgetTerm (blockParams Wi bi Ui Wo bo Uo Wu bu Uu Wf bf Uf) (rowOf X p) (kidsOf CH p) (kidsOf CC p) q))
  exact congrArg₂ (· + ·) (congrArg₂ (· + ·) (congrArg₂ (· + ·) (congrArg₂ (· + ·) (congrArg₂ (· + ·) (congrArg₂ (· + ·) (congrArg₂ (· + ·)
    (congrArg₂ (· + ·) (input_apply X CH Wi bi Ui Wo bo Uo Wu bu Uu Wf bf Uf p q)
      (fk 0 _ rfl slices_S1024x8x128_o0_0_0_S1024x1x128))
      (fk 1 _ rfl slices_S1024x8x128_o0_1_0_S1024x1x128))
      (fk 2 _ rfl slices_S1024x8x128_o0_2_0_S1024x1x128))
      (fk 3 _ rfl slices_S1024x8x128_o0_3_0_S1024x1x128))
      (fk 4 _ rfl slices_S1024x8x128_o0_4_0_S1024x1x128))
      (fk 5 _ rfl slices_S1024x8x128_o0_5_0_S1024x1x128))
      (fk 6 _ rfl slices_S1024x8x128_o0_6_0_S1024x1x128))
      (fk 7 _ rfl slices_S1024x8x128_o0_7_0_S1024x1x128)

/-- THE HIDDEN BLOCK at entry `(p, q)` is the specification's hidden state: the output gate times `tanh` of the cell. -/
theorem hiddenPay_apply (p : Fin 1024) (q : Fin 128) :
    hiddenPay X CH CC Wi bi Ui Wo bo Uo Wu bu Uu Wf bf Uf (ix2 p q)
      = hidden (blockParams Wi bi Ui Wo bo Uo Wu bu Uu Wf bf Uf) (rowOf X p) (kidsOf CH p) (kidsOf CC p) q :=
  congrArg₂ (· * ·) (congrArg Ideal.logistic (affine_apply X CH Wo Uo bo shapeCasts_S1x128_S1x128 broadcasts_S1x128_S1024x128 p q))
    (congrArg Ideal.tanh (cellPay_apply X CH CC Wi bi Ui Wo bo Uo Wu bu Uu Wf bf Uf p q))

end Cert.KernelIdeal.Block

end
-- ==== Proof.KernelArray.lean ====
/-
  From blocks to arrays: what the kernel's run leaves in its two result arrays.

  The grid has 64 points; at point `t` the windows of the nodes' rows and of their children's rows hold nodes
  `1024 t … 1024 t + 1023` of their arrays, the eight weight matrices are whole at every point, and a bias window
  holds the bias as one row [1, 128] (the host recasts each bias [128] to [1, 128] before the call). So node `p`
  of block `t` is node `1024 t + p` of the layer, what point `t` writes back is block `t` of the specification's
  `cellAll` and `hiddenAll` of the argument arrays, and the 64 blocks cover the result arrays.
-/
import proofs.«117306_j15710990369454_1_alg».proof.Proof.Gen.KernelIdeal.Value
import proofs.«117306_j15710990369454_1_alg».proof.Proof.KernelBlock
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Arrays

open Cert.KernelIdeal Cert.KernelIdeal.Gen Cert.KernelIdeal.Block Idealize.ShloMosaic Idealize.ShloMosaic.TcCoe Idealize.SL.Sem
open Idealize.ShloMosaic.ValueIdx Cert.TreeLstm
open Idealize.ShloMosaic.Pipeline (Dat)

variable (m : (ℓ : Loc nD τ sig) → Buf (Elt Ideal) ℓ) (ρ : Dev nD → PrngReg)

/-! ## The index maps, decided over the 64 points -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 2) = 0 ∧ win0_14.index t (1 : Fin 2) = 0 :=
  (by decide +kernel : ∀ t : Fin grid0.N, _)
theorem index15 : ∀ t : Fin cfg0.N, win0_15.index t (0 : Fin 2) = t.val ∧ win0_15.index t (1 : Fin 2) = 0 :=
  (by decide +kernel : ∀ t : Fin grid0.N, _)
theorem index16 : ∀ t : Fin cfg0.N, win0_16.index t (0 : Fin 2) = t.val ∧ win0_16.index t (1 : Fin 2) = 0 :=
  (by decide +kernel : ∀ t : Fin grid0.N, _)

/-! ## Each window's block, read off its argument array -/

/-- Node `p` of the input rows' block at point `t` is node `1024 t + p`. -/
theorem blk0 (c : Dev nD) (t : Fin cfg0.N) (p : Fin 1024) (j : Fin 128) (n : Fin 65536) (hn : n.val = 1024 * t.val + p.val) :
    (iblk m c 0 t : Vec Ideal S1024x128 .f32) (ix2 p j) = m ((c : Thread nD τ).loc main_arg0) (ix2 n j) := by
  obtain ⟨e0, e1⟩ := index0 t
  show V m c main_arg0 (((cfg0.win 0).blk t).view.emb (ix2 p j)) = _
  rw [V_main_arg0]
  refine congrArg _ (funext fun ax => Fin.ext ?_)
  match ax with
  | ⟨0, _⟩ => show win0_0.index t (0 : Fin 2) * 1024 + 1 * p.val = n.val; omega
  | ⟨1, _⟩ => show win0_0.index t (1 : Fin 2) * 128 + 1 * j.val = j.val; omega

/-- Child `k` of node `p` of the children's hidden rows' block at point `t` is child `k` of node `1024 t + p`. -/
theorem blk1 (c : Dev nD) (t : Fin cfg0.N) (p : Fin 1024) (k : Fin 8) (j : Fin 128) (n : Fin 65536) (hn : n.val = 1024 * t.val + p.val) :
    (iblk m c 1 t : Vec Ideal S1024x8x128 .f32) (ix3 p k j) = m ((c : Thread nD τ).loc main_arg1) (ix3 n k j) := by
  obtain ⟨e0, e1, e2⟩ := index1 t
  show V m c main_arg1 (((cfg0.win 1).blk t).view.emb (ix3 p k j)) = _
  rw [V_main_arg1]
  refine congrArg _ (funext fun ax => Fin.ext ?_)
  match ax with
  | ⟨0, _⟩ => show win0_1.index t (0 : Fin 3) * 1024 + 1 * p.val = n.val; omega
  | ⟨1, _⟩ => show win0_1.index t (1 : Fin 3) * 8 + 1 * k.val = k.val; omega
  | ⟨2, _⟩ => show win0_1.index t (2 : Fin 3) * 128 + 1 * j.val = j.val; omega

/-- The input gate's input matrix is whole at every point. -/
theorem blk3 (c : Dev nD) (t : Fin cfg0.N) : (iblk m c 3 t : Vec Ideal S128x128 .f32) = m ((c : Thread nD τ).loc main_arg3) := by
  obtain ⟨e0, e1⟩ := index3 t
  funext y
  show V m c main_arg3 (((cfg0.win 3).blk t).view.emb y) = _
  rw [V_main_arg3]
  refine congrArg _ (funext fun ax => Fin.ext ?_)
  match ax with
  | ⟨0, _⟩ => show win0_3.index t (0 : Fin 2) * 128 + 1 * (y 0).val = (y 0).val; omega
  | ⟨1, _⟩ => show win0_3.index t (1 : Fin 2) * 128 + 1 * (y 1).val = (y 1).val; omega

/-- The host recasts the input gate's bias [128] to one row [1, 128] before the call. -/
theorem V_bias0 (c : Dev nD) : (V m c main_v0 : S1x128.Idx → EReal) = shapeCast S1x128 (m ((c : Thread nD τ).loc main_arg4)) shapeCasts_S128_S1x128 := by
  dsimp only [Gen.V, Gen.hostOps0]; after_results; rfl

/-- The input gate's bias window holds the bias as one row. -/
theorem blk4 (c : Dev nD) (t : Fin cfg0.N) (d : Fin 128) :
    (iblk m c 4 t : Vec Ideal S1x128 .f32) (ix2 (0 : Fin 1) d) = m ((c : Thread nD τ).loc main_arg4) (ix1 d) := by
  obtain ⟨e0, e1⟩ := index4 t
  show V m c main_v0 (((cfg0.win 4).blk t).view.emb (ix2 (0 : Fin 1) d)) = _
  rw [V_bias0]
  refine (congrArg _ (funext fun ax => Fin.ext ?_)).trans (shapeCast_a_1a_apply _ shapeCasts_S128_S1x128 (0 : Fin 1) d)
  match ax with
  | ⟨0, _⟩ => show win0_4.index t (0 : Fin 2) * 1 + 1 * 0 = 0; omega
  | ⟨1, _⟩ => show win0_4.index t (1 : Fin 2) * 128 + 1 * d.val = d.val; omega

/-- Child `k` of node `p` of the children's cell rows' block at point `t` is child `k` of node `1024 t + p`. -/
theorem blk2 (c : Dev nD) (t : Fin cfg0.N) (p : Fin 1024) (k : Fin 8) (j : Fin 128) (n : Fin 65536) (hn : n.val = 1024 * t.val + p.val) :
    (iblk m c 2 t : Vec Ideal S1024x8x128 .f32) (ix3 p k j) = m ((c : Thread nD τ).loc main_arg2) (ix3 n k j) := by
  obtain ⟨e0, e1, e2⟩ := index2 t
  show V m c main_arg2 (((cfg0.win 2).blk t).view.emb (ix3 p k j)) = _
  rw [V_main_arg2]
  refine congrArg _ (funext fun ax => Fin.ext ?_)
  match ax with
  | ⟨0, _⟩ => show win0_2.index t (0 : Fin 3) * 1024 + 1 * p.val = n.val; omega
  | ⟨1, _⟩ => show win0_2.index t (1 : Fin 3) * 8 + 1 * k.val = k.val; omega
  | ⟨2, _⟩ => show win0_2.index t (2 : Fin 3) * 128 + 1 * j.val = j.val; omega

/-- The input gate's recurrent matrix is whole at every point. -/
theorem blk5 (c : Dev nD) (t : Fin cfg0.N) : (iblk m c 5 t : Vec Ideal S128x128 .f32) = m ((c : Thread nD τ).loc main_arg5) := by
  obtain ⟨e0, e1⟩ := index5 t
  funext y
  show V m c main_arg5 (((cfg0.win 5).blk t).view.emb y) = _
  rw [V_main_arg5]
  refine congrArg _ (funext fun ax => Fin.ext ?_)
  match ax with
  | ⟨0, _⟩ => show win0_5.index t (0 : Fin 2) * 128 + 1 * (y 0).val = (y 0).val; omega
  | ⟨1, _⟩ => show win0_5.index t (1 : Fin 2) * 128 + 1 * (y 1).val = (y 1).val; omega

/-- The output gate's input matrix is whole at every point. -/
theorem blk6 (c : Dev nD) (t : Fin cfg0.N) : (iblk m c 6 t : Vec Ideal S128x128 .f32) = m ((c : Thread nD τ).loc main_arg6) := by
  obtain ⟨e0, e1⟩ := index6 t
  funext y
  show V m c main_arg6 (((cfg0.win 6).blk t).view.emb y) = _
  rw [V_main_arg6]
  refine congrArg _ (funext fun ax => Fin.ext ?_)
  match ax with
  | ⟨0, _⟩ => show win0_6.index t (0 : Fin 2) * 128 + 1 * (y 0).val = (y 0).val; omega
  | ⟨1, _⟩ => show win0_6.index t (1 : Fin 2) * 128 + 1 * (y 1).val = (y 1).val; omega

/-- The output gate's recurrent matrix is whole at every point. -/
theorem blk8 (c : Dev nD) (t : Fin cfg0.N) : (iblk m c 8 t : Vec Ideal S128x128 .f32) = m ((c : Thread nD τ).loc main_arg8) := by
  obtain ⟨e0, e1⟩ := index8 t
  funext y
  show V m c main_arg8 (((cfg0.win 8).blk t).view.emb y) = _
  rw [V_main_arg8]
  refine congrArg _ (funext fun ax => Fin.ext ?_)
  match ax with
  | ⟨0, _⟩ => show win0_8.index t (0 : Fin 2) * 128 + 1 * (y 0).val = (y 0).val; omega
  | ⟨1, _⟩ => show win0_8.index t (1 : Fin 2) * 128 + 1 * (y 1).val = (y 1).val; omega

/-- The candidate's input matrix is whole at every point. -/
theorem blk9 (c : Dev nD) (t : Fin cfg0.N) : (iblk m c 9 t : Vec Ideal S128x128 .f32) = m ((c : Thread nD τ).loc main_arg9) := by
  obtain ⟨e0, e1⟩ := index9 t
  funext y
  show V m c main_arg9 (((cfg0.win 9).blk t).view.emb y) = _
  rw [V_main_arg9]
  refine congrArg _ (funext fun ax => Fin.ext ?_)
  match ax with
  | ⟨0, _⟩ => show win0_9.index t (0 : Fin 2) * 128 + 1 * (y 0).val = (y 0).val; omega
  | ⟨1, _⟩ => show win0_9.index t (1 : Fin 2) * 128 + 1 * (y 1).val = (y 1).val; omega

/-- The candidate's recurrent matrix is whole at every point. -/
theorem blk11 (c : Dev nD) (t : Fin cfg0.N) : (iblk m c 11 t : Vec Ideal S128x128 .f32) = m ((c : Thread nD τ).loc main_arg11) := by
  obtain ⟨e0, e1⟩ := index11 t
  funext y
  show V m c main_arg11 (((cfg0.win 11).blk t).view.emb y) = _
  rw [V_main_arg11]
  refine congrArg _ (funext fun ax => Fin.ext ?_)
  match ax with
  | ⟨0, _⟩ => show win0_11.index t (0 : Fin 2) * 128 + 1 * (y 0).val = (y 0).val; omega
  | ⟨1, _⟩ => show win0_11.index t (1 : Fin 2) * 128 + 1 * (y 1).val = (y 1).val; omega

/-- The forget gates' input matrix is whole at every point. -/
theorem blk12 (c : Dev nD) (t : Fin cfg0.N) : (iblk m c 12 t : Vec Ideal S128x128 .f32) = m ((c : Thread nD τ).loc main_arg12) := by
  obtain ⟨e0, e1⟩ := index12 t
  funext y
  show V m c main_arg12 (((cfg0.win 12).blk t).view.emb y) = _
  rw [V_main_arg12]
  refine congrArg _ (funext fun ax => Fin.ext ?_)
  match ax with
  | ⟨0, _⟩ => show win0_12.index t (0 : Fin 2) * 128 + 1 * (y 0).val = (y 0).val; omega
  | ⟨1, _⟩ => show win0_12.index t (1 : Fin 2) * 128 + 1 * (y 1).val = (y 1).val; omega

/-- The forget gates' recurrent matrix is whole at every point. -/
theorem blk14 (c : Dev nD) (t : Fin cfg0.N) : (iblk m c 14 t : Vec Ideal S128x128 .f32) = m ((c : Thread nD τ).loc main_arg14) := by
  obtain ⟨e0, e1⟩ := index14 t
  funext y
  show V m c main_arg14 (((cfg0.win 14).blk t).view.emb y) = _
  rw [V_main_arg14]
  refine congrArg _ (funext fun ax => Fin.ext ?_)
  match ax with
  | ⟨0, _⟩ => show win0_14.index t (0 : Fin 2) * 128 + 1 * (y 0).val = (y 0).val; omega
  | ⟨1, _⟩ => show win0_14.index t (1 : Fin 2) * 128 + 1 * (y 1).val = (y 1).val; omega

/-- The host recasts the output gate's bias to one row before the call. -/
theorem V_bias1 (c : Dev nD) : (V m c main_v1 : S1x128.Idx → EReal) = shapeCast S1x128 (m ((c : Thread nD τ).loc main_arg7)) shapeCasts_S128_S1x128 := by
  dsimp only [Gen.V, Gen.hostOps0]; after_results; rfl

/-- The output gate's bias window holds the bias as one row. -/
theorem blk7 (c : Dev nD) (t : Fin cfg0.N) (d : Fin 128) :
    (iblk m c 7 t : Vec Ideal S1x128 .f32) (ix2 (0 : Fin 1) d) = m ((c : Thread nD τ).loc main_arg7) (ix1 d) := by
  obtain ⟨e0, e1⟩ := index7 t
  show V m c main_v1 (((cfg0.win 7).blk t).view.emb (ix2 (0 : Fin 1) d)) = _
  rw [V_bias1]
  refine (congrArg _ (funext fun ax => Fin.ext ?_)).trans (shapeCast_a_1a_apply _ shapeCasts_S128_S1x128 (0 : Fin 1) d)
  match ax with
  | ⟨0, _⟩ => show win0_7.index t (0 : Fin 2) * 1 + 1 * 0 = 0; omega
  | ⟨1, _⟩ => show win0_7.index t (1 : Fin 2) * 128 + 1 * d.val = d.val; omega

/-- The host recasts the candidate's bias to one row before the call. -/
theorem V_bias2 (c : Dev nD) : (V m c main_v2 : S1x128.Idx → EReal) = shapeCast S1x128 (m ((c : Thread nD τ).loc main_arg10)) shapeCasts_S128_S1x128 := by
  dsimp only [Gen.V, Gen.hostOps0]; after_results; rfl

/-- The candidate's bias window holds the bias as one row. -/
theorem blk10 (c : Dev nD) (t : Fin cfg0.N) (d : Fin 128) :
    (iblk m c 10 t : Vec Ideal S1x128 .f32) (ix2 (0 : Fin 1) d) = m ((c : Thread nD τ).loc main_arg10) (ix1 d) := by
  obtain ⟨e0, e1⟩ := index10 t
  show V m c main_v2 (((cfg0.win 10).blk t).view.emb (ix2 (0 : Fin 1) d)) = _
  rw [V_bias2]
  refine (congrArg _ (funext fun ax => Fin.ext ?_)).trans (shapeCast_a_1a_apply _ shapeCasts_S128_S1x128 (0 : Fin 1) d)
  match ax with
  | ⟨0, _⟩ => show win0_10.index t (0 : Fin 2) * 1 + 1 * 0 = 0; omega
  | ⟨1, _⟩ => show win0_10.index t (1 : Fin 2) * 128 + 1 * d.val = d.val; omega

/-- The host recasts the forget gates' bias to one row before the call. -/
theorem V_bias3 (c : Dev nD) : (V m c main_v3 : S1x128.Idx → EReal) = shapeCast S1x128 (m ((c : Thread nD τ).loc main_arg13)) shapeCasts_S128_S1x128 := by
  dsimp only [Gen.V, Gen.hostOps0]; after_results; rfl

/-- The forget gates' bias window holds the bias as one row. -/
theorem blk13 (c : Dev nD) (t : Fin cfg0.N) (d : Fin 128) :
    (iblk m c 13 t : Vec Ideal S1x128 .f32) (ix2 (0 : Fin 1) d) = m ((c : Thread nD τ).loc main_arg13) (ix1 d) := by
  obtain ⟨e0, e1⟩ := index13 t
  show V m c main_v3 (((cfg0.win 13).blk t).view.emb (ix2 (0 : Fin 1) d)) = _
  rw [V_bias3]
  refine (congrArg _ (funext fun ax => Fin.ext ?_)).trans (shapeCast_a_1a_apply _ shapeCasts_S128_S1x128 (0 : Fin 1) d)
  match ax with
  | ⟨0, _⟩ => show win0_13.index t (0 : Fin 2) * 1 + 1 * 0 = 0; omega
  | ⟨1, _⟩ => show win0_13.index t (1 : Fin 2) * 128 + 1 * d.val = d.val; omega

/-! ## What the body stores, and the layer's parameters in memory -/

theorem hz2 : (![0, 0] : Fin 2 → Nat) = fun _ => 0 := funext fun a => by fin_cases a <;> rfl
theorem hz3 : (![0, 0, 0] : Fin 3 → Nat) = fun _ => 0 := funext fun a => by fin_cases a <;> rfl

/-- The cell window's buffer after the body holds the cell block of the body's loads. -/
theorem out16_eq (x0 : Vec Ideal S1024x128 .f32) (x1 x2 : Vec Ideal S1024x8x128 .f32) (x3 : Vec Ideal S128x128 .f32) (x4 : Vec Ideal S1x128 .f32)
    (x5 x6 : Vec Ideal S128x128 .f32) (x7 : Vec Ideal S1x128 .f32) (x8 x9 : Vec Ideal S128x128 .f32) (x10 : Vec Ideal S1x128 .f32)
    (x11 x12 : Vec Ideal S128x128 .f32) (x13 : Vec Ideal S1x128 .f32) (x14 : Vec Ideal S128x128 .f32) :
    out0_16 x0 x1 x2 x3 x4 x5 x6 x7 x8 x9 x10 x11 x12 x13 x14 = cellPay x0 x1 x2 x3 x4 x5 x9 x10 x11 x12 x13 x14 := by
  unfold out0_16
  rw [View.canon_unit_zero hz2]
  simp only [View.ld_unit_zero (S := S1024x128) hz2, View.ld_unit_zero (S := S1024x8x128) hz3, View.ld_unit_zero (S := S128x128) hz2,
    View.ld_unit_zero (S := S1x128) hz2]

/-- The hidden window's buffer after the body holds the hidden block of the body's loads. -/
theorem out15_eq (x0 : Vec Ideal S1024x128 .f32) (x1 x2 : Vec Ideal S1024x8x128 .f32) (x3 : Vec Ideal S128x128 .f32) (x4 : Vec Ideal S1x128 .f32)
    (x5 x6 : Vec Ideal S128x128 .f32) (x7 : Vec Ideal S1x128 .f32) (x8 x9 : Vec Ideal S128x128 .f32) (x10 : Vec Ideal S1x128 .f32)
    (x11 x12 : Vec Ideal S128x128 .f32) (x13 : Vec Ideal S1x128 .f32) (x14 : Vec Ideal S128x128 .f32) :
    out0_15 x0 x1 x2 x3 x4 x5 x6 x7 x8 x9 x10 x11 x12 x13 x14 = hiddenPay x0 x1 x2 x3 x4 x5 x6 x7 x8 x9 x10 x11 x12 x13 x14 := by
  unfold out0_15
  rw [View.canon_unit_zero hz2]
  simp only [View.ld_unit_zero (S := S1024x128) hz2, View.ld_unit_zero (S := S1024x8x128) hz3, View.ld_unit_zero (S := S128x128) hz2,
    View.ld_unit_zero (S := S1x128) hz2]

/-- The layer's parameters as the run finds them in memory. -/
abbrev paramsIn (c : Dev nD) : Params :=
  paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- At every point the twelve parameter windows hold the layer's parameters. -/
theorem params_blk (c : Dev nD) (t : Fin cfg0.N) :
    blockParams (iblk m c 3 t) (iblk m c 4 t) (iblk m c 5 t) (iblk m c 6 t) (iblk m c 7 t) (iblk m c 8 t) (iblk m c 9 t) (iblk m c 10 t)
      (iblk m c 11 t) (iblk m c 12 t) (iblk m c 13 t) (iblk m c 14 t) = paramsIn m c := by
  have b4 : biasOf (iblk m c 4 t) = fun d => (m ((c : Thread nD τ).loc main_arg4)) (ix1 d) := funext fun d => blk4 m c t d
  have b7 : biasOf (iblk m c 7 t) = fun d => (m ((c : Thread nD τ).loc main_arg7)) (ix1 d) := funext fun d => blk7 m c t d
  have b10 : biasOf (iblk m c 10 t) = fun d => (m ((c : Thread nD τ).loc main_arg10)) (ix1 d) := funext fun d => blk10 m c t d
  have b13 : biasOf (iblk m c 13 t) = fun d => (m ((c : Thread nD τ).loc main_arg13)) (ix1 d) := funext fun d => blk13 m c t d
  unfold blockParams paramsIn paramsOf
  rw [b4, b7, b10, b13, blk3 m c t, blk5 m c t, blk6 m c t, blk8 m c t, blk9 m c t, blk11 m c t, blk12 m c t, blk14 m c t]

/-! ## A block whose rows are nodes `1024 t …` of the layer computes the layer's values there -/

theorem cell_bridge (w : Params) (Xa : Nodes) (CHa CCa : Children)
    (x0 : Vec Ideal S1024x128 .f32) (x1 x2 : Vec Ideal S1024x8x128 .f32) (x3 : Vec Ideal S128x128 .f32) (x4 : Vec Ideal S1x128 .f32)
    (x5 x6 : Vec Ideal S128x128 .f32) (x7 : Vec Ideal S1x128 .f32) (x8 x9 : Vec Ideal S128x128 .f32) (x10 : Vec Ideal S1x128 .f32)
    (x11 x12 : Vec Ideal S128x128 .f32) (x13 : Vec Ideal S1x128 .f32) (x14 : Vec Ideal S128x128 .f32) (t : ℕ)
    (h0 : ∀ (p : Fin 1024) (j : Fin 128) (n : Fin 65536), n.val = 1024 * t + p.val → x0 (ix2 p j) = Xa (ix2 n j))
    (h1 : ∀ (p : Fin 1024) (k : Fin 8) (j : Fin 128) (n : Fin 65536), n.val = 1024 * t + p.val → x1 (ix3 p k j) = CHa (ix3 n k j))
    (h2 : ∀ (p : Fin 1024) (k : Fin 8) (j : Fin 128) (n : Fin 65536), n.val = 1024 * t + p.val → x2 (ix3 p k j) = CCa (ix3 n k j))
    (hw : blockParams x3 x4 x5 x6 x7 x8 x9 x10 x11 x12 x13 x14 = w)
    (y : S1024x128.Idx) (i : S65536x128.Idx) (hi0 : (i 0).val = 1024 * t + (y 0).val) (hi1 : (i 1).val = (y 1).val) :
    cellPay x0 x1 x2 x3 x4 x5 x9 x10 x11 x12 x13 x14 y = cellAll w Xa CHa CCa i := by
  obtain ⟨p, q, rfl⟩ : ∃ (p : Fin 1024) (q : Fin 128), y = ix2 p q := ⟨y 0, y 1, eq_ix2 y⟩
  obtain ⟨n, d, rfl⟩ : ∃ (n : Fin 65536) (d : Fin 128), i = ix2 n d := ⟨i 0, i 1, eq_ix2 i⟩
  have hn : n.val = 1024 * t + p.val := hi0
  have hd : d = q := Fin.ext hi1
  subst hd
  rw [cellPay_apply x0 x1 x2 x3 x4 x5 x6 x7 x8 x9 x10 x11 x12 x13 x14 p d, hw]
  show cell w (rowOf x0 p) (kidsOf x1 p) (kidsOf x2 p) d
    = cell w (fun j => Xa (ix2 n j)) (fun k j => CHa (ix3 n k j)) (fun k j => CCa (ix3 n k j)) d
  rw [show rowOf x0 p = fun j => Xa (ix2 n j) from funext fun j => h0 p j n hn,
    show kidsOf x1 p = fun k j => CHa (ix3 n k j) from funext fun k => funext fun j => h1 p k j n hn,
    show kidsOf x2 p = fun k j => CCa (ix3 n k j) from funext fun k => funext fun j => h2 p k j n hn]

theorem hidden_bridge (w : Params) (Xa : Nodes) (CHa CCa : Children)
    (x0 : Vec Ideal S1024x128 .f32) (x1 x2 : Vec Ideal S1024x8x128 .f32) (x3 : Vec Ideal S128x128 .f32) (x4 : Vec Ideal S1x128 .f32)
    (x5 x6 : Vec Ideal S128x128 .f32) (x7 : Vec Ideal S1x128 .f32) (x8 x9 : Vec Ideal S128x128 .f32) (x10 : Vec Ideal S1x128 .f32)
    (x11 x12 : Vec Ideal S128x128 .f32) (x13 : Vec Ideal S1x128 .f32) (x14 : Vec Ideal S128x128 .f32) (t : ℕ)
    (h0 : ∀ (p : Fin 1024) (j : Fin 128) (n : Fin 65536), n.val = 1024 * t + p.val → x0 (ix2 p j) = Xa (ix2 n j))
    (h1 : ∀ (p : Fin 1024) (k : Fin 8) (j : Fin 128) (n : Fin 65536), n.val = 1024 * t + p.val → x1 (ix3 p k j) = CHa (ix3 n k j))
    (h2 : ∀ (p : Fin 1024) (k : Fin 8) (j : Fin 128) (n : Fin 65536), n.val = 1024 * t + p.val → x2 (ix3 p k j) = CCa (ix3 n k j))
    (hw : blockParams x3 x4 x5 x6 x7 x8 x9 x10 x11 x12 x13 x14 = w)
    (y : S1024x128.Idx) (i : S65536x128.Idx) (hi0 : (i 0).val = 1024 * t + (y 0).val) (hi1 : (i 1).val = (y 1).val) :
    hiddenPay x0 x1 x2 x3 x4 x5 x6 x7 x8 x9 x10 x11 x12 x13 x14 y = hiddenAll w Xa CHa CCa i := by
  obtain ⟨p, q, rfl⟩ : ∃ (p : Fin 1024) (q : Fin 128), y = ix2 p q := ⟨y 0, y 1, eq_ix2 y⟩
  obtain ⟨n, d, rfl⟩ : ∃ (n : Fin 65536) (d : Fin 128), i = ix2 n d := ⟨i 0, i 1, eq_ix2 i⟩
  have hn : n.val = 1024 * t + p.val := hi0
  have hd : d = q := Fin.ext hi1
  subst hd
  rw [hiddenPay_apply x0 x1 x2 x3 x4 x5 x6 x7 x8 x9 x10 x11 x12 x13 x14 p d, hw]
  show hidden w (rowOf x0 p) (kidsOf x1 p) (kidsOf x2 p) d
    = hidden w (fun j => Xa (ix2 n j)) (fun k j => CHa (ix3 n k j)) (fun k j => CCa (ix3 n k j)) d
  rw [show rowOf x0 p = fun j => Xa (ix2 n j) from funext fun j => h0 p j n hn,
    show kidsOf x1 p = fun k j => CHa (ix3 n k j) from funext fun k => funext fun j => h1 p k j n hn,
    show kidsOf x2 p = fun k j => CCa (ix3 n k j) from funext fun k => funext fun j => h2 p k j n hn]

/-! ## What each point writes back, the cover, and the run -/

/-- Point `t` writes back block `t` of the layer's cell states. -/
theorem flushed16_eq (c : Dev nD) (t : Fin cfg0.N) :
    (dats m 0 c).flushed 16 t
      = ((cfg0.win 16).blk t).view.read (Elt Ideal) (cellAll (paramsIn m c) (m ((c : Thread nD τ).loc main_arg0)) (m ((c : Thread nD τ).loc main_arg1)) (m ((c : Thread nD τ).loc main_arg2))) := by
  have e := out16_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
  obtain ⟨e0, e1⟩ := index16 t
  rw [Value.flushed16]
  funext y
  refine (congrFun e y).trans ?_
  refine cell_bridge (paramsIn m c) _ _ _ _ _ _ (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) t.val
    (fun p j n hn => blk0 m c t p j n hn) (fun p k j n hn => blk1 m c t p k j n hn) (fun p k j n hn => blk2 m c t p k j n hn)
    (params_blk m c t) y _ ?_ ?_
  · show win0_16.index t (0 : Fin 2) * 1024 + 1 * (y 0).val = 1024 * t.val + (y 0).val; omega
  · show win0_16.index t (1 : Fin 2) * 128 + 1 * (y 1).val = (y 1).val; omega

/-- Point `t` writes back block `t` of the layer's hidden states. -/
theorem flushed15_eq (c : Dev nD) (t : Fin cfg0.N) :
    (dats m 0 c).flushed 15 t
      = ((cfg0.win 15).blk t).view.read (Elt Ideal) (hiddenAll (paramsIn m c) (m ((c : Thread nD τ).loc main_arg0)) (m ((c : Thread nD τ).loc main_arg1)) (m ((c : Thread nD τ).loc main_arg2))) := by
  have e := out15_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
  obtain ⟨e0, e1⟩ := index15 t
  rw [Value.flushed15]
  funext y
  refine (congrFun e y).trans ?_
  refine hidden_bridge (paramsIn m c) _ _ _ _ _ _ (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) t.val
    (fun p j n hn => blk0 m c t p j n hn) (fun p k j n hn => blk1 m c t p k j n hn) (fun p k j n hn => blk2 m c t p k j n hn)
    (params_blk m c t) y _ ?_ ?_
  · show win0_15.index t (0 : Fin 2) * 1024 + 1 * (y 0).val = 1024 * t.val + (y 0).val; omega
  · show win0_15.index t (1 : Fin 2) * 128 + 1 * (y 1).val = (y 1).val; omega

/-- An index of the cell array is in point `t`'s block iff each coordinate is in the block's range on its axis. -/
theorem mem_blk16 (t : Fin cfg0.N) (i : S65536x128.Idx) :
    i ∈ ((cfg0.win 16).blk t).view.set ↔ ∀ a : Fin 2, win0_16.index t a * S1024x128.size a ≤ (i a).val ∧ (i a).val < win0_16.index t a * S1024x128.size a + S1024x128.size a := by
  show i ∈ ((View.whole main_v4_1).slice (win0_16.rect t)).set ↔ _
  rw [View.set_slice_whole, Rect.mem_set_unit]
  exact Iff.rfl

/-- The same for the hidden array. -/
theorem mem_blk15 (t : Fin cfg0.N) (i : S65536x128.Idx) :
    i ∈ ((cfg0.win 15).blk t).view.set ↔ ∀ a : Fin 2, win0_15.index t a * S1024x128.size a ≤ (i a).val ∧ (i a).val < win0_15.index t a * S1024x128.size a + S1024x128.size a := by
  show i ∈ ((View.whole main_v4_0).slice (win0_15.rect t)).set ↔ _
  rw [View.set_slice_whole, Rect.mem_set_unit]
  exact Iff.rfl

/-- Node `n` lies in block `n / 1024`: the 64 blocks cover the cell array. -/
theorem cover16 (i : S65536x128.Idx) : ∃ t : Fin cfg0.N, (cfg0.win 16).flush t = true ∧ i ∈ ((cfg0.win 16).blk t).view.set := by
  have hN : grid0.N = 64 := N_0
  have hi0 : (i 0).val < 65536 := (i 0).isLt
  have hi1 : (i 1).val < 128 := (i 1).isLt
  obtain ⟨t, ht⟩ : ∃ t : Fin cfg0.N, t.val = (i 0).val / 1024 := ⟨⟨(i 0).val / 1024, by show (i 0).val / 1024 < grid0.N; omega⟩, rfl⟩
  obtain ⟨e0, e1⟩ := index16 t
  refine ⟨t, flush0_16 t, ?_⟩
  rw [mem_blk16]
  intro a
  match a with
  | ⟨0, _⟩ => show win0_16.index t (0 : Fin 2) * 1024 ≤ (i 0).val ∧ (i 0).val < win0_16.index t (0 : Fin 2) * 1024 + 1024; omega
  | ⟨1, _⟩ => show win0_16.index t (1 : Fin 2) * 128 ≤ (i 1).val ∧ (i 1).val < win0_16.index t (1 : Fin 2) * 128 + 128; omega

/-- The 64 blocks cover the hidden array. -/
theorem cover15 (i : S65536x128.Idx) : ∃ t : Fin cfg0.N, (cfg0.win 15).flush t = true ∧ i ∈ ((cfg0.win 15).blk t).view.set := by
  have hN : grid0.N = 64 := N_0
  have hi0 : (i 0).val < 65536 := (i 0).isLt
  have hi1 : (i 1).val < 128 := (i 1).isLt
  obtain ⟨t, ht⟩ : ∃ t : Fin cfg0.N, t.val = (i 0).val / 1024 := ⟨⟨(i 0).val / 1024, by show (i 0).val / 1024 < grid0.N; omega⟩, rfl⟩
  obtain ⟨e0, e1⟩ := index15 t
  refine ⟨t, flush0_15 t, ?_⟩
  rw [mem_blk15]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 128 ≤ (i 1).val ∧ (i 1).val < win0_15.index t (1 : Fin 2) * 128 + 128; omega

/-- After the run the cell array holds the layer's cell states. -/
theorem final16 (c : Dev nD) : (dats m 0 c).arrAt 16 cfg0.N = cellAll (paramsIn m c) (m ((c : Thread nD τ).loc main_arg0)) (m ((c : Thread nD τ).loc main_arg1)) (m ((c : Thread nD τ).loc main_arg2)) :=
  (dats m 0 c).arrAt_eq_of_cover 16 _ (fun t _ => flushed16_eq m c t) cover16

/-- After the run the hidden array holds the layer's hidden states. -/
theorem final15 (c : Dev nD) : (dats m 0 c).arrAt 15 cfg0.N = hiddenAll (paramsIn m c) (m ((c : Thread nD τ).loc main_arg0)) (m ((c : Thread nD τ).loc main_arg1)) (m ((c : Thread nD τ).loc main_arg2)) :=
  (dats m 0 c).arrAt_eq_of_cover 15 _ (fun t _ => flushed15_eq m c t) cover15

/-- THE KERNEL'S RUN: every weakly fair execution terminates with the hidden array at the layer's hidden states, the cell
    array at its cell states, and the fifteen arguments unchanged. -/
theorem run : θ_run defs (onTc (τ := τ) (main (F := Ideal))) ⟨m, fun _ => 0, ρ⟩ fun r => ∀ c : Dev nD,
      r.2.mem ((c : Thread nD τ).loc main_v4_0) = hiddenAll (paramsIn m c) (m ((c : Thread nD τ).loc main_arg0)) (m ((c : Thread nD τ).loc main_arg1)) (m ((c : Thread nD τ).loc main_arg2))
      ∧ r.2.mem ((c : Thread nD τ).loc main_v4_1) = cellAll (paramsIn m c) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.KernelIdeal.Arrays

end
-- ==== Proof.RefValue.lean ====
import proofs.«117306_j15710990369454_1_alg».proof.Proof.Gen.ReferenceIdeal.Read
import proofs.«117306_j15710990369454_1_alg».proof.Proof.TreeLstmSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.TreeLstm

/-! ## Words and indices -/

/-- The word `0x3F800000` is the number one. -/
private theorem one_f32 : Ideal.ofBits .f32 0x3F800000#32 = 1 := by
  simp [Ideal.ofBits, Ideal.ieee, -EReal.coe_mul]; norm_num

/-! The index a product `a·W` reads its left factor at, for output `(n, d)` and contracted feature `k`, is `(n, k)`;
    the right factor is read at `(k, d)`. One pair of equations per product of the reference. -/
private theorem lidx1 (n : Fin 65536) (d k : Fin 128) : lidx_main_v1 (ix2 n d) k = ix2 n k :=
  funext fun a => Fin.ext (by match a with | ⟨0, _⟩ => rfl | ⟨1, _⟩ => rfl)
private theorem ridx1 (n : Fin 65536) (d k : Fin 128) : ridx_main_v1 (ix2 n d) k = ix2 k d :=
  funext fun a => Fin.ext (by match a with | ⟨0, _⟩ => rfl | ⟨1, _⟩ => rfl)
private theorem lidx5 (n : Fin 65536) (d k : Fin 128) : lidx_main_v5 (ix2 n d) k = ix2 n k :=
  funext fun a => Fin.ext (by match a with | ⟨0, _⟩ => rfl | ⟨1, _⟩ => rfl)
private theorem ridx5 (n : Fin 65536) (d k : Fin 128) : ridx_main_v5 (ix2 n d) k = ix2 k d :=
  funext fun a => Fin.ext (by match a with | ⟨0, _⟩ => rfl | ⟨1, _⟩ => rfl)
private theorem lidx13 (n : Fin 65536) (d k : Fin 128) : lidx_main_v13 (ix2 n d) k = ix2 n k :=
  funext fun a => Fin.ext (by match a with | ⟨0, _⟩ => rfl | ⟨1, _⟩ => rfl)
private theorem ridx13 (n : Fin 65536) (d k : Fin 128) : ridx_main_v13 (ix2 n d) k = ix2 k d :=
  funext fun a => Fin.ext (by match a with | ⟨0, _⟩ => rfl | ⟨1, _⟩ => rfl)
private theorem lidx17 (n : Fin 65536) (d k : Fin 128) : lidx_main_v17 (ix2 n d) k = ix2 n k :=
  funext fun a => Fin.ext (by match a with | ⟨0, _⟩ => rfl | ⟨1, _⟩ => rfl)
private theorem ridx17 (n : Fin 65536) (d k : Fin 128) : ridx_main_v17 (ix2 n d) k = ix2 k d :=
  funext fun a => Fin.ext (by match a with | ⟨0, _⟩ => rfl | ⟨1, _⟩ => rfl)
private theorem lidx25 (n : Fin 65536) (d k : Fin 128) : lidx_main_v25 (ix2 n d) k = ix2 n k :=
  funext fun a => Fin.ext (by match a with | ⟨0, _⟩ => rfl | ⟨1, _⟩ => rfl)
private theorem ridx25 (n : Fin 65536) (d k : Fin 128) : ridx_main_v25 (ix2 n d) k = ix2 k d :=
  funext fun a => Fin.ext (by match a with | ⟨0, _⟩ => rfl | ⟨1, _⟩ => rfl)
private theorem lidx29 (n : Fin 65536) (d k : Fin 128) : lidx_main_v29 (ix2 n d) k = ix2 n k :=
  funext fun a => Fin.ext (by match a with | ⟨0, _⟩ => rfl | ⟨1, _⟩ => rfl)
private theorem ridx29 (n : Fin 65536) (d k : Fin 128) : ridx_main_v29 (ix2 n d) k = ix2 k d :=
  funext fun a => Fin.ext (by match a with | ⟨0, _⟩ => rfl | ⟨1, _⟩ => rfl)
private theorem lidx32 (n : Fin 65536) (d k : Fin 128) : lidx_main_v32 (ix2 n d) k = ix2 n k :=
  funext fun a => Fin.ext (by match a with | ⟨0, _⟩ => rfl | ⟨1, _⟩ => rfl)
private theorem ridx32 (n : Fin 65536) (d k : Fin 128) : ridx_main_v32 (ix2 n d) k = ix2 k d :=
  funext fun a => Fin.ext (by match a with | ⟨0, _⟩ => rfl | ⟨1, _⟩ => rfl)

/-- The per-child product reads child `k`'s hidden row at feature `j`. -/
private theorem lidx37 (n : Fin 65536) (k : Fin 8) (d j : Fin 128) : lidx_main_v37 (ix3 n k d) j = ix3 n k j :=
  funext fun a => Fin.ext (by match a with | ⟨0, _⟩ => rfl | ⟨1, _⟩ => rfl | ⟨2, _⟩ => rfl)
private theorem ridx37 (n : Fin 65536) (k : Fin 8) (d j : Fin 128) : ridx_main_v37 (ix3 n k d) j = ix2 j d :=
  funext fun a => Fin.ext (by match a with | ⟨0, _⟩ => rfl | ⟨1, _⟩ => rfl)

/-- The two sums over the eight children read child `k` of node `n` at feature `d`. -/
private theorem idx0 (n : Fin 65536) (d : Fin 128) (k : Fin 8) : idx_main_v0 (ix2 n d) k = ix3 n k d :=
  funext fun a => Fin.ext (by match a with | ⟨0, _⟩ => rfl | ⟨1, _⟩ => rfl | ⟨2, _⟩ => rfl)
private theorem idx48 (n : Fin 65536) (d : Fin 128) (k : Fin 8) : idx_main_v48 (ix2 n d) k = ix3 n k d :=
  funext fun a => Fin.ext (by match a with | ⟨0, _⟩ => rfl | ⟨1, _⟩ => rfl | ⟨2, _⟩ => rfl)

/-- A bias spread over the nodes is the bias at the feature. -/
private theorem bias_apply (b : (⟨S128, .f32⟩ : BufTy).Contents (Elt Ideal)) (n : Fin 65536) (d : Fin 128) :
    val_main_v3 (F := Ideal) b (ix2 n d) = b (ix1 d) := by
  rw [val_main_v3_apply, val_main_v2_apply]
  exact congrArg b (funext fun a => Fin.ext (by match a with | ⟨0, _⟩ => rfl))

/-- The first sum's starting value is zero. -/
private theorem cst_zero (i : S_.Idx) : (val_main_cst (F := Ideal)) i = 0 := by
  rw [val_main_cst_apply, Ideal.ofBits_def, Ideal.ofBits_zero_f32]
/-- The second sum's starting value is zero. -/
private theorem cst6_zero (i : S_.Idx) : (val_main_cst_6 (F := Ideal)) i = 0 := by
  rw [val_main_cst_6_apply, Ideal.ofBits_def, Ideal.ofBits_zero_f32]

/-! ## One gate -/

/-- The input part of a gate's argument, `x·W + b`, at node `n` and feature `d`. -/
private theorem inpart_apply (x0 : (⟨S65536x128, .f32⟩ : BufTy).Contents (Elt Ideal)) (W : (⟨S128x128, .f32⟩ : BufTy).Contents (Elt Ideal)) (b : (⟨S128, .f32⟩ : BufTy).Contents (Elt Ideal)) (n : Fin 65536) (d : Fin 128) :
    val_main_v4 (F := Ideal) x0 W b (ix2 n d) = dotCol (fun j => x0 (ix2 n j)) W d + b (ix1 d) := by
  rw [val_main_v4_apply, val_main_v1_apply, bias_apply]
  simp only [lidx1, ridx1, Ideal.addf_def]
  rfl

/-- The recurrent part of a gate's argument, `h̃·U`, at node `n` and feature `d`: the children's hidden rows are summed first. -/
private theorem recpart_apply (x1 : (⟨S65536x8x128, .f32⟩ : BufTy).Contents (Elt Ideal)) (U : (⟨S128x128, .f32⟩ : BufTy).Contents (Elt Ideal)) (n : Fin 65536) (d : Fin 128) :
    val_main_v5 (F := Ideal) x1 U (ix2 n d) = dotCol (childSum fun k j => x1 (ix3 n k j)) U d := by
  rw [val_main_v5_apply]
  simp only [lidx5, ridx5, val_main_v0_apply, idx0, cst_zero, zero_add]
  rfl

/-- A gate's argument at node `n` and feature `d`. -/
private theorem gate_arg (x0 : (⟨S65536x128, .f32⟩ : BufTy).Contents (Elt Ideal)) (x1 : (⟨S65536x8x128, .f32⟩ : BufTy).Contents (Elt Ideal)) (W : (⟨S128x128, .f32⟩ : BufTy).Contents (Elt Ideal)) (b : (⟨S128, .f32⟩ : BufTy).Contents (Elt Ideal)) (U : (⟨S128x128, .f32⟩ : BufTy).Contents (Elt Ideal)) (n : Fin 65536) (d : Fin 128) :
    val_main_v6 (F := Ideal) x0 x1 W b U (ix2 n d)
      = affine (fun j => x0 (ix2 n j)) (childSum fun k j => x1 (ix3 n k j)) W (fun d => b (ix1 d)) U d := by
  rw [val_main_v6_apply, inpart_apply, recpart_apply]
  rfl

/-- The reference spells the sigmoid `1 / (1 + e^(-y))`: that is the logistic function. -/
private theorem sigmoid_apply (x0 : (⟨S65536x128, .f32⟩ : BufTy).Contents (Elt Ideal)) (x1 : (⟨S65536x8x128, .f32⟩ : BufTy).Contents (Elt Ideal)) (W : (⟨S128x128, .f32⟩ : BufTy).Contents (Elt Ideal)) (b : (⟨S128, .f32⟩ : BufTy).Contents (Elt Ideal)) (U : (⟨S128x128, .f32⟩ : BufTy).Contents (Elt Ideal)) (i : S65536x128.Idx) :
    val_main_v12 (F := Ideal) x0 x1 W b U i = Ideal.logistic (val_main_v6 (F := Ideal) x0 x1 W b U i) := by
  rw [val_main_v12_apply, val_main_v11_apply, val_main_cst_1_apply, val_main_v10_apply, val_main_v9_apply,
    val_main_cst_0_apply, val_main_v8_apply, val_main_v7_apply]
  simp only [Ideal.hostDivf_def, Ideal.hostUnary_exp_def, Ideal.hostNegf_def, Ideal.negf_def, Ideal.addf_def,
    Ideal.ofBits_def, one_f32]
  rfl

/-! ## The forget gates, one per child -/

/-- The input part of the forget gates' argument does not depend on the child: spread over the eight children it is
    still `x·W + b` at node `n` and feature `d`. -/
private theorem spread_apply (x0 : (⟨S65536x128, .f32⟩ : BufTy).Contents (Elt Ideal)) (W : (⟨S128x128, .f32⟩ : BufTy).Contents (Elt Ideal)) (b : (⟨S128, .f32⟩ : BufTy).Contents (Elt Ideal)) (n : Fin 65536) (k : Fin 8) (d : Fin 128) :
    val_main_v38 (F := Ideal) x0 W b (ix3 n k d) = dotCol (fun j => x0 (ix2 n j)) W d + b (ix1 d) := by
  rw [val_main_v38_apply, val_main_v36_apply]
  have e : idx_main_v36 (idx_main_v38 (ix3 n k d)) = ix2 n d :=
    funext fun a => Fin.ext (by match a with | ⟨0, _⟩ => rfl | ⟨1, _⟩ => rfl)
  rw [e]
  exact inpart_apply x0 W b n d

/-- Child `k`'s hidden row times the forget gates' recurrent matrix, at feature `d`. -/
private theorem childdot_apply (x1 : (⟨S65536x8x128, .f32⟩ : BufTy).Contents (Elt Ideal)) (U : (⟨S128x128, .f32⟩ : BufTy).Contents (Elt Ideal)) (n : Fin 65536) (k : Fin 8) (d : Fin 128) :
    val_main_v37 (F := Ideal) x1 U (ix3 n k d) = dotCol (fun j => x1 (ix3 n k j)) U d := by
  rw [val_main_v37_apply]
  simp only [lidx37, ridx37]
  rfl

/-- Child `k`'s forget gate's argument at node `n` and feature `d`. -/
private theorem forget_arg (x0 : (⟨S65536x128, .f32⟩ : BufTy).Contents (Elt Ideal)) (x1 : (⟨S65536x8x128, .f32⟩ : BufTy).Contents (Elt Ideal)) (W : (⟨S128x128, .f32⟩ : BufTy).Contents (Elt Ideal)) (b : (⟨S128, .f32⟩ : BufTy).Contents (Elt Ideal)) (U : (⟨S128x128, .f32⟩ : BufTy).Contents (Elt Ideal)) (n : Fin 65536) (k : Fin 8) (d : Fin 128) :
    val_main_v39 (F := Ideal) x0 x1 W b U (ix3 n k d)
      = affine (fun j => x0 (ix2 n j)) (fun j => x1 (ix3 n k j)) W (fun d => b (ix1 d)) U d := by
  rw [val_main_v39_apply, spread_apply, childdot_apply]
  rfl

/-- The per-child sigmoid is the logistic function too. -/
private theorem sigmoid3_apply (x0 : (⟨S65536x128, .f32⟩ : BufTy).Contents (Elt Ideal)) (x1 : (⟨S65536x8x128, .f32⟩ : BufTy).Contents (Elt Ideal)) (W : (⟨S128x128, .f32⟩ : BufTy).Contents (Elt Ideal)) (b : (⟨S128, .f32⟩ : BufTy).Contents (Elt Ideal)) (U : (⟨S128x128, .f32⟩ : BufTy).Contents (Elt Ideal)) (i : S65536x8x128.Idx) :
    val_main_v45 (F := Ideal) x0 x1 W b U i = Ideal.logistic (val_main_v39 (F := Ideal) x0 x1 W b U i) := by
  rw [val_main_v45_apply, val_main_v44_apply, val_main_cst_5_apply, val_main_v43_apply, val_main_v42_apply,
    val_main_cst_4_apply, val_main_v41_apply, val_main_v40_apply]
  simp only [Ideal.hostDivf_def, Ideal.hostUnary_exp_def, Ideal.hostNegf_def, Ideal.negf_def, Ideal.addf_def,
    Ideal.ofBits_def, one_f32]
  rfl

/-! ## The two results -/

/-- The reference's cell state, read operation by operation: the input gate times the candidate, plus the sum over
    the eight children of each child's forget gate times its cell row. The three node-wise gates are one and the same
    term at three triples of parameters, and so are the sigmoids. -/
theorem cell_eq (x0 : (⟨S65536x128, .f32⟩ : BufTy).Contents (Elt Ideal)) (x1 x2 : (⟨S65536x8x128, .f32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal))
    (x7 : (⟨S128, .f32⟩ : BufTy).Contents (Elt Ideal)) (x8 x9 : (⟨S128x128, .f32⟩ : BufTy).Contents (Elt Ideal)) (x10 : (⟨S128, .f32⟩ : BufTy).Contents (Elt Ideal))
    (x11 x12 : (⟨S128x128, .f32⟩ : BufTy).Contents (Elt Ideal)) (x13 : (⟨S128, .f32⟩ : BufTy).Contents (Elt Ideal)) (x14 : (⟨S128x128, .f32⟩ : BufTy).Contents (Elt Ideal)) :
    val_main_v49 (F := Ideal) x0 x1 x2 x3 x4 x5 x9 x10 x11 x12 x13 x14
      = cellAll (paramsOf x3 x4 x5 x6 x7 x8 x9 x10 x11 x12 x13 x14) x0 x1 x2 := by
  funext i
  obtain ⟨n, d, rfl⟩ : ∃ (n : Fin 65536) (d : Fin 128), i = ix2 n d := ⟨i 0, i 1, eq_ix2 i⟩
  rw [val_main_v49_apply, val_main_v46_apply, val_main_v48_apply, val_main_v31_apply, sigmoid_apply, gate_arg,
    show val_main_v30 (F := Ideal) x0 x1 x9 x10 x11 (ix2 n d) = val_main_v6 (F := Ideal) x0 x1 x9 x10 x11 (ix2 n d) from rfl,
    gate_arg]
  simp only [val_main_v47_apply, idx48, sigmoid3_apply, forget_arg, cst6_zero, zero_add, Ideal.addf_def, Ideal.mulf_def,
    Ideal.hostUnary_tanh_def]
  rfl

/-- The reference's hidden state: the output gate times the hyperbolic tangent of the cell state. -/
theorem hidden_eq (x0 : (⟨S65536x128, .f32⟩ : BufTy).Contents (Elt Ideal)) (x1 x2 : (⟨S65536x8x128, .f32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal))
    (x7 : (⟨S128, .f32⟩ : BufTy).Contents (Elt Ideal)) (x8 x9 : (⟨S128x128, .f32⟩ : BufTy).Contents (Elt Ideal)) (x10 : (⟨S128, .f32⟩ : BufTy).Contents (Elt Ideal))
    (x11 x12 : (⟨S128x128, .f32⟩ : BufTy).Contents (Elt Ideal)) (x13 : (⟨S128, .f32⟩ : BufTy).Contents (Elt Ideal)) (x14 : (⟨S128x128, .f32⟩ : BufTy).Contents (Elt Ideal)) :
    val_main_v51 (F := Ideal) x0 x1 x2 x3 x4 x5 x6 x7 x8 x9 x10 x11 x12 x13 x14
      = hiddenAll (paramsOf x3 x4 x5 x6 x7 x8 x9 x10 x11 x12 x13 x14) x0 x1 x2 := by
  funext i
  obtain ⟨n, d, rfl⟩ : ∃ (n : Fin 65536) (d : Fin 128), i = ix2 n d := ⟨i 0, i 1, eq_ix2 i⟩
  rw [val_main_v51_apply, val_main_v50_apply, cell_eq x0 x1 x2 x3 x4 x5 x6 x7 x8 x9 x10 x11 x12 x13 x14,
    show val_main_v24 (F := Ideal) x0 x1 x6 x7 x8 (ix2 n d) = val_main_v12 (F := Ideal) x0 x1 x6 x7 x8 (ix2 n d) from rfl,
    sigmoid_apply, gate_arg]
  simp only [Ideal.mulf_def, Ideal.hostUnary_tanh_def]
  rfl

end Cert.ReferenceIdeal.RefValue

end
-- ==== Proof.lean ====
/-
  The child-sum Tree-LSTM cell as a Pallas kernel against its jnp reference, over the extended reals.

  Both programs take 65536 nodes' input rows `x` [65536, 128], their eight children's hidden and cell rows
  [65536, 8, 128], and four gates' parameters `(W, b, U)`, and return the nodes' new hidden and cell states

    c = σ(pre_i) · tanh(pre_u) + ∑ₖ σ((x·Wf + bf) + hₖ·Uf) · cₖ,    h = σ(pre_o) · tanh c,
    pre_g = (x·W_g + b_g) + (∑ₖ hₖ)·U_g,    σ y = 1 / (1 + e^(-y))

  (Proof/TreeLstmSpec.lean states this node by node). The kernel works on 64 blocks of 1024 nodes; on the extended
  reals its changes of float format are the identity, its matrix products are the same sums as the reference's, its
  logistic operation is the reference's `1 / (1 + e^(-y))`, and the only rearrangement is that it adds the eight
  children's forget terms to `i · u` one after the other where the reference adds their sum: addition of extended
  reals is associative, so no finiteness of the inputs is needed and the precondition is not opened.
    * Proof/KernelBlock.lean: one block's two stored values are the specification's, entry by entry;
    * Proof/KernelArray.lean: each window's block is the argument array's rows `1024 t …`, the 64 blocks cover the
      result arrays, hence the kernel's run ends with both result arrays at the specification;
    * Proof/RefValue.lean: the reference's two results, read operation by operation, are the specification.
  The three frames are the programs' generated runs; the idealization rewrote nothing, so `preserves` is `True`.
-/
import proofs.«117306_j15710990369454_1_alg».proof.Defs
import proofs.«117306_j15710990369454_1_alg».proof.Proof.Gen.Kernel
import proofs.«117306_j15710990369454_1_alg».proof.Proof.Gen.Kernel.Skeleton
import proofs.«117306_j15710990369454_1_alg».proof.Proof.Gen.Kernel.Launch
import proofs.«117306_j15710990369454_1_alg».proof.Proof.Gen.Kernel.Points
import proofs.«117306_j15710990369454_1_alg».proof.Proof.Gen.Kernel.Frame
import proofs.«117306_j15710990369454_1_alg».proof.Proof.Gen.KernelIdeal
import proofs.«117306_j15710990369454_1_alg».proof.Proof.Gen.KernelIdeal.Skeleton
import proofs.«117306_j15710990369454_1_alg».proof.Proof.Gen.KernelIdeal.Launch
import proofs.«117306_j15710990369454_1_alg».proof.Proof.Gen.KernelIdeal.Points
import proofs.«117306_j15710990369454_1_alg».proof.Proof.Gen.KernelIdeal.Frame
import proofs.«117306_j15710990369454_1_alg».proof.Proof.Gen.ReferenceIdeal
import proofs.«117306_j15710990369454_1_alg».proof.Proof.Gen.Pre_finite_inputs
import proofs.«117306_j15710990369454_1_alg».proof.Proof.Gen.KernelIdeal.Value
import proofs.«117306_j15710990369454_1_alg».proof.Proof.Gen.ReferenceIdeal.Run
import proofs.«117306_j15710990369454_1_alg».proof.Proof.Gen.ReferenceIdeal.Read
import proofs.«117306_j15710990369454_1_alg».proof.Proof.TreeLstmSpec
import proofs.«117306_j15710990369454_1_alg».proof.Proof.KernelBlock
import proofs.«117306_j15710990369454_1_alg».proof.Proof.KernelArray
import proofs.«117306_j15710990369454_1_alg».proof.Proof.RefValue
import Idealize.ShloMosaic.Adequacy
import Idealize.ShloMosaic.Init

noncomputable section

namespace Cert.Proof

open Idealize.ShloMosaic Idealize.SL.Sem Cert.TreeLstm

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, both programs end with the hidden array at the specification's `hiddenAll` and the cell
    array at its `cellAll` of the kernel's arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [a0, a1, a2, a3, a4, a5, a6, a7, a8, a9, a10, a11, a12, a13, a14]
    exact (Cert.ReferenceIdeal.Read.val_main_v51_eq (F := Ideal) _ _ _ _ _ _ _ _ _ _ _ _ _ _ _).trans
      (Cert.ReferenceIdeal.RefValue.hidden_eq _ _ _ _ _ _ _ _ _ _ _ _ _ _ _)
  · obtain ⟨a0, a1, a2, a3, a4, a5, a6, a7, a8, a9, a10, a11, a12, a13, a14⟩ := hagree c
    rw [a0, a1, a2, a3, a4, a5, a9, a10, a11, a12, a13, a14]
    exact (Cert.ReferenceIdeal.Read.val_main_v49_eq (F := Ideal) _ _ _ _ _ _ _ _ _ _ _ _).trans
      (Cert.ReferenceIdeal.RefValue.cell_eq _ _ _ _ _ _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
